-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384 : Shape := ⟨2, ![64, 16384]⟩
abbrev S16384x16384 : Shape := ⟨2, ![16384, 16384]⟩
abbrev S16384 : Shape := ⟨1, ![16384]⟩
abbrev S_ : Shape := ⟨0, ![]⟩

class Facts : Prop where
  bcast_S_S64x16384 : S_.BroadcastsInDim S64x16384 (![] : Fin 0 → Fin S64x16384.rank)
  reducesTo_S64x16384_S_d0_1 : S64x16384.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S64x16384 .f32) (main_arg1 : FVec F S16384x16384 .f32) (main_arg2 : FVec F S16384 .f32) : IVec S_ 1 :=
  let main_v0 : FVec F S64x16384 .f32 := Host.absf main_arg0
  let main_cst : FVec F S_ .f32 := constant S_ .f32 0x7F800000#32
  let main_v1 : FVec F S64x16384 .f32 := broadcastInDim S64x16384 ![] bcast_S_S64x16384 main_cst
  let main_v2 : IVec S64x16384 1 := cmpf .olt main_v0 main_v1
  let main_c : IVec S_ 1 := constantI S_ 1 1#1
  let main_v3 : IVec S_ 1 := (fun x v => Host.reduce IntOp.andi x v reducesTo_S64x16384_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S64x16384 : Shape := ⟨2, ![64, 16384]⟩
abbrev S16384x16384 : Shape := ⟨2, ![16384, 16384]⟩
abbrev S16384 : Shape := ⟨1, ![16384]⟩
abbrev S16384x64 : Shape := ⟨2, ![16384, 64]⟩
abbrev S16384x1 : Shape := ⟨2, ![16384, 1]⟩
abbrev S256x16384 : Shape := ⟨2, ![256, 16384]⟩
abbrev S256x1 : Shape := ⟨2, ![256, 1]⟩
abbrev S256x64 : Shape := ⟨2, ![256, 64]⟩

abbrev nBuf : Space → Nat
  | .hbm => 7
  | .vmem => 7
  | .smem => 0
  | _ => 0

abbrev bufTy : (tb : Table) → Fin (tcTables nBuf tb) → BufTy
  | .hbm, ⟨0, _⟩ => ⟨S64x16384, .f32⟩
  | .hbm, ⟨1, _⟩ => ⟨S16384x16384, .f32⟩
  | .hbm, ⟨2, _⟩ => ⟨S16384, .f32⟩
  | .hbm, ⟨3, _⟩ => ⟨S16384x64, .f32⟩
  | .hbm, ⟨4, _⟩ => ⟨S16384x1, .f32⟩
  | .hbm, ⟨5, _⟩ => ⟨S16384x64, .f32⟩
  | .hbm, ⟨6, _⟩ => ⟨S64x16384, .f32⟩
  | .local _ .vmem, ⟨0, _⟩ => ⟨S16384x64, .f32⟩
  | .local _ .vmem, ⟨1, _⟩ => ⟨S256x16384, .f32⟩
  | .local _ .vmem, ⟨2, _⟩ => ⟨S256x16384, .f32⟩
  | .local _ .vmem, ⟨3, _⟩ => ⟨S256x1, .f32⟩
  | .local _ .vmem, ⟨4, _⟩ => ⟨S256x1, .f32⟩
  | .local _ .vmem, ⟨5, _⟩ => ⟨S256x64, .f32⟩
  | .local _ .vmem, ⟨6, _⟩ => ⟨S256x64, .f32⟩
  | _, _ => ⟨S64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16384x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x16384_S16384x64_1_0 : S64x16384.Transposes [1, 0] S16384x64
  shapeCasts_S16384_S16384x1 : S16384.ShapeCasts S16384x1
  inb_S256x16384_S256x16384_0_0 : ∀ a, (![0, 0] : Fin 2 → Nat) a + S256x16384.size a ≤ S256x16384.size a
  h_S256x16384 : 0 < S256x16384.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S256x64_S256x64_0_0 : ∀ a, (![0, 0] : Fin 2 → Nat) a + S256x64.size a ≤ S256x64.size a
  h_S256x64 : 0 < S256x64.numel
  transposes_S16384x64_S64x16384_1_0 : S16384x64.Transposes [1, 0] S64x16384
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S16384x64.size a
  hwx0_0 : ∀ i : grid0.Coords, EltTy.bits .f32 = 32 ∨ (Rect.block (s := S16384x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16384.size a ≤ S16384x16384.size a
  hwx0_1 : ∀ i : grid0.Coords, EltTy.bits .f32 = 32 ∨ (Rect.block (s := S16384x16384) S256x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)

variable [Facts₀]

def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_v0) S16384x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x16384 : Shape := ⟨2, ![64, 16384]⟩
abbrev S16384x16384 : Shape := ⟨2, ![16384, 16384]⟩
abbrev S16384 : Shape := ⟨1, ![16384]⟩
abbrev S16384x64 : Shape := ⟨2, ![16384, 64]⟩
abbrev S1x16384 : Shape := ⟨2, ![1, 16384]⟩

abbrev nBuf : Space → Nat
  | .hbm => 9
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S16384x16384, .f32⟩
  | .hbm, ⟨2, _⟩ => ⟨S16384, .f32⟩
  | .hbm, ⟨3, _⟩ => ⟨S16384x64, .f32⟩
  | .hbm, ⟨4, _⟩ => ⟨S16384x64, .f32⟩
  | .hbm, ⟨5, _⟩ => ⟨S64x16384, .f32⟩
  | .hbm, ⟨6, _⟩ => ⟨S1x16384, .f32⟩
  | .hbm, ⟨7, _⟩ => ⟨S64x16384, .f32⟩
  | .hbm, ⟨8, _⟩ => ⟨S64x16384, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S64x16384_S16384x64_1_0 : S64x16384.Transposes [1, 0] S16384x64
  transposes_S16384x64_S64x16384_1_0 : S16384x64.Transposes [1, 0] S64x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Payload.lean ====
/-
  What one grid step stores, read at an entry.

  A grid step holds 256 rows of `W` (a 256 × 16384 block), the whole transposed input (16384 × 64) and 256 bias
  entries as a column (256 × 1). It multiplies the block of `W` by the transposed input into a zero accumulator and
  adds the bias column broadcast along the batch axis. At entry `(p, q)` of the 256 × 64 result that is
  `Σ_k Wblk (p, k) · xT (k, q) + bcol (p, 0)`.
-/
import proofs.«104818_g71760313581734_cont_9to1_m_768_2_alg».proof.Proof.Gen.KernelIdeal.Skeleton
import proofs.«104818_g71760313581734_cont_9to1_m_768_2_alg».proof.Proof.LibDot
import Idealize.ShloMosaic.Lib.Pipeline.Value
import Idealize.ShloMosaic.Lib.ValueIdx
import Idealize.ShloMosaic.PureOps.Ideal.Laws

noncomputable section

namespace Cert.AffineRows.Step

open Idealize.ShloMosaic Idealize.ShloMosaic.ValueIdx Cert.KernelIdeal Cert.KernelIdeal.Gen

variable [Cert.KernelIdeal.Facts]

/-- The printed dimension record of the step's product is the plain rows-by-columns one. -/
theorem dot_plain : dot_S256x16384_S16384x64_S256x64_1_0_0_1_n_n = DotDims.plain 256 16384 64 := rfl

/-- The bias column broadcast along the batch axis reads the column's entry of the same row. -/
theorem bias_col_apply (v : FVec Ideal S256x1 .f32) (h : S256x1.Broadcasts S256x64) (p : Fin 256) (q : Fin 64) :
    broadcastTo S256x64 v h (ix2 p q) = v (ix2 p 0) :=
  broadcastTo_apply v h (ix2 p q) (ix2 p 0) (fun a => match a with
    | ⟨0, _⟩ => by show p.val = if (256 : Nat) = 1 then 0 else p.val; rw [if_neg (by decide)]
    | ⟨1, _⟩ => by show 0 = if (1 : Nat) = 1 then 0 else q.val; rw [if_pos rfl])

/-- The step's stored value at entry `(p, q)`. -/
theorem pay_apply (v0 : Vec Ideal S256x16384 .f32) (v1 : Vec Ideal S16384x64 .f32) (v4 : Vec Ideal S256x1 .f32)
    (p : Fin 256) (q : Fin 64) :
    k0_pay1 (F := Ideal) v0 v1 v4 (ix2 p q) = (∑ k : Fin 16384, v0 (ix2 p k) * v1 (ix2 k q)) + v4 (ix2 p 0) := by
  unfold k0_pay1
  rw [shapeCast_self, shapeCast_self, dot_plain]
  show FloatOps.matmul (DotDims.plain 256 16384 64) none v0 v1 (constant (F := Ideal) S256x64 .f32 0x00000000#32) (ix2 p q)
      + broadcastTo S256x64 v4 broadcasts_S256x1_S256x64 (ix2 p q) = _
  rw [Cert.GNN.matmul_plain_zero_apply, bias_col_apply]

end Cert.AffineRows.Step

end
-- ==== Proof.Spec.lean ====
/-
  The mathematics of the certificate, with no program in sight.

  The layer is `y = x · Wᵀ + bias`: for a batch row `b` and an output feature `n`,
  `y (b, n) = Σ_k W (n, k) · x (b, k) + bias n`, the sum over the 16384 input features.
  Both programs compute the transposed array `yT (n, b)` first (rows of `W` against rows of `x`) and transpose it
  at the end, so the transposed array is named too. No law beyond the definition is needed: both sides multiply the
  same factors in the same order and add the same bias to the same sum, so nothing here depends on finiteness.
-/
import Idealize.ShloMosaic.PureOps.Ideal
import Idealize.ShloMosaic.Lib.ValueIdx

noncomputable section

namespace Cert.AffineRows

open Idealize.ShloMosaic Idealize.ShloMosaic.ValueIdx

/-- The transposed result: entry `(n, b)` is row `n` of `W` against row `b` of `x`, plus `bias n`. -/
def affineT (x : FVec Ideal ⟨2, ![64, 16384]⟩ .f32) (W : FVec Ideal ⟨2, ![16384, 16384]⟩ .f32)
    (bias : FVec Ideal ⟨1, ![16384]⟩ .f32) : FVec Ideal ⟨2, ![16384, 64]⟩ .f32 :=
  fun i => (∑ k : Fin 16384, W (ix2 (i 0) k) * x (ix2 (i 1) k)) + bias (ix1 (i 0))

/-- The result: entry `(b, n)` is entry `(n, b)` of the transposed result. -/
def affine (x : FVec Ideal ⟨2, ![64, 16384]⟩ .f32) (W : FVec Ideal ⟨2, ![16384, 16384]⟩ .f32)
    (bias : FVec Ideal ⟨1, ![16384]⟩ .f32) : FVec Ideal ⟨2, ![64, 16384]⟩ .f32 :=
  fun i => affineT x W bias (ix2 (i 1) (i 0))

theorem affineT_apply (x : FVec Ideal ⟨2, ![64, 16384]⟩ .f32) (W : FVec Ideal ⟨2, ![16384, 16384]⟩ .f32)
    (bias : FVec Ideal ⟨1, ![16384]⟩ .f32) (n : Fin 16384) (b : Fin 64) :
    affineT x W bias (ix2 n b) = (∑ k : Fin 16384, W (ix2 n k) * x (ix2 b k)) + bias (ix1 n) := rfl

theorem affine_apply (x : FVec Ideal ⟨2, ![64, 16384]⟩ .f32) (W : FVec Ideal ⟨2, ![16384, 16384]⟩ .f32)
    (bias : FVec Ideal ⟨1, ![16384]⟩ .f32) (b : Fin 64) (n : Fin 16384) :
    affine x W bias (ix2 b n) = (∑ k : Fin 16384, W (ix2 n k) * x (ix2 b k)) + bias (ix1 n) := rfl

end Cert.AffineRows

end
-- ==== Proof.Region.lean ====
/-
  From grid steps to the array the region leaves.

  The region runs 64 steps. Step `t` sees rows `256 t … 256 t + 255` of `W` and of the bias column, and the whole
  transposed input; it writes rows `256 t … 256 t + 255` of the 16384 × 64 output. The transposed input and the bias
  column are made by the two host operations before the region: the transposed input at `(k, q)` is `x (q, k)`, the
  bias column at `(n, 0)` is `bias n`. So what step `t` writes at `(p, q)` is entry `(256 t + p, q)` of the
  transposed result `affineT`, and since the 64 blocks of 256 rows tile the 16384 rows, the region leaves the whole
  of `affineT` in its output array.
-/
import proofs.«104818_g71760313581734_cont_9to1_m_768_2_alg».proof.Proof.Gen.KernelIdeal.Frame
import proofs.«104818_g71760313581734_cont_9to1_m_768_2_alg».proof.Proof.Payload
import proofs.«104818_g71760313581734_cont_9to1_m_768_2_alg».proof.Proof.Spec
import Idealize.ShloMosaic.Lib.StableHlo.Run
import Idealize.ShloMosaic.Lib.Pipeline.Value
import Idealize.ShloMosaic.Lib.ValueIdx

noncomputable section

namespace Cert.AffineRows.Region

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ)

/-- The three argument arrays as launched. -/
abbrev xArg (c : Dev nD) : FVec Ideal S64x16384 .f32 := m ((c : Thread nD τ).loc main_arg0)
abbrev wArg (c : Dev nD) : FVec Ideal S16384x16384 .f32 := m ((c : Thread nD τ).loc main_arg1)
abbrev bArg (c : Dev nD) : FVec Ideal S16384 .f32 := m ((c : Thread nD τ).loc main_arg2)

/-! ## The two arrays the host makes before the region -/

/-- The transposed input at `(k, q)` is the input at `(q, k)`. -/
theorem xT_apply (c : Dev nD) (k : Fin 16384) (q : Fin 64) :
    (V m c main_v0 : S16384x64.Idx → EReal) (ix2 k q) = xArg m c (ix2 q k) := by
  have e : (V m c main_v0 : S16384x64.Idx → EReal)
      = transpose S16384x64 [1, 0] (xArg m c) transposes_S64x16384_S16384x64_1_0 := by
    show StableHlo.after hostOps0 (fun b => m (c, b)) (Proc.devRef .tc main_v0) = _
    after_results
  rw [e]
  exact transpose_apply [1, 0] (xArg m c) transposes_S64x16384_S16384x64_1_0 (ix2 k q) (ix2 q k)
    (fun b => match b with | ⟨0, _⟩ => rfl | ⟨1, _⟩ => rfl)

/-- The bias column at `(n, 0)` is the bias at `n`. -/
theorem bcol_apply (c : Dev nD) (n : Fin 16384) :
    (V m c main_v1 : S16384x1.Idx → EReal) (ix2 n 0) = bArg m c (ix1 n) := by
  have e : (V m c main_v1 : S16384x1.Idx → EReal)
      = shapeCast S16384x1 (bArg m c) shapeCasts_S16384_S16384x1 := by
    show StableHlo.after hostOps0 (fun b => m (c, b)) (Proc.devRef .tc main_v1) = _
    after_results
    rfl
  rw [e]
  exact shapeCast_apply (bArg m c) shapeCasts_S16384_S16384x1 (ix2 n 0) (ix1 n)
    (by rw [Shape.rowMajor_val_one, Shape.rowMajor_val_two]; show n.val = n.val * 1 + 0; omega)

/-! ## One step -/

/-- A step whose three blocks are rows `256 r + p` of `W` and of the bias column and the whole transposed input
    stores entry `(256 r + p, q)` of the transposed result at `(p, q)`. -/
theorem step_entry (x : FVec Ideal S64x16384 .f32) (W : FVec Ideal S16384x16384 .f32) (bias : FVec Ideal S16384 .f32)
    (xT : Vec Ideal S16384x64 .f32) (Wb : Vec Ideal S256x16384 .f32) (bc : Vec Ideal S256x1 .f32)
    (p : Fin 256) (q : Fin 64) (n : Fin 16384)
    (hxT : ∀ k : Fin 16384, xT (ix2 k q) = x (ix2 q k))
    (hW : ∀ k : Fin 16384, Wb (ix2 p k) = W (ix2 n k))
    (hb : bc (ix2 p 0) = bias (ix1 n)) :
    k0_pay1 (F := Ideal) Wb xT bc (ix2 p q) = affineT x W bias (ix2 n q) := by
  rw [Cert.AffineRows.Step.pay_apply, affineT_apply, hb]
  exact congrArg (· + bias (ix1 n)) (Finset.sum_congr rfl fun k _ => by rw [hW k, hxT k])

/-! ## The blocks -/

theorem hz : (![0, 0] : Fin 2 → Nat) = fun _ => 0 := funext fun a => by fin_cases a <;> rfl

/-- The printed index maps over the grid: the transposed input is one block; the other three windows move with the
    step along the rows. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What step `t` writes back is block `t` of the transposed result. -/
theorem flushed_eq (c : Dev nD) (t : Fin cfg0.N) :
    (dats m 0 c).flushed 3 t
      = ((cfg0.win 3).blk t).view.read (Elt Ideal) (affineT (xArg m c) (wArg m c) (bArg m c)) := by
  show (cfg0.win 3).cut (grid0.coords t) ((dats m 0 c).after 3 t) = _
  rw [after0_3]
  unfold out0_3
  rw [View.canon_unit_zero hz]
  simp only [View.ld_unit_zero (S := S256x16384) hz, View.ld_unit_zero (S := S16384x64) hz, View.ld_unit_zero (S := S256x1) hz]
  obtain ⟨e00, e01, e10, e11, e20, e21, e30, e31⟩ := idx_facts t
  have ht : t.val < 64 := lt_of_lt_of_eq t.isLt N_0
  funext j
  have hp : (j 0).val < 256 := (j 0).isLt
  have hq : (j 1).val < 64 := (j 1).isLt
  have hrow : t.val * 256 + (j 0).val < 16384 := by omega
  show k0_pay1 (F := Ideal) (iblk m c 1 t) (iblk m c 0 t) (iblk m c 2 t) j
      = affineT (xArg m c) (wArg m c) (bArg m c) (((cfg0.win 3).blk t).view.emb j)
  have hj : j = ix2 (⟨(j 0).val, hp⟩ : Fin 256) (⟨(j 1).val, hq⟩ : Fin 64) :=
    funext fun a => Fin.ext (by match a with | ⟨0, _⟩ => rfl | ⟨1, _⟩ => rfl)
  have hemb : ((cfg0.win 3).blk t).view.emb j = ix2 (⟨t.val * 256 + (j 0).val, hrow⟩ : Fin 16384) (⟨(j 1).val, hq⟩ : Fin 64) :=
    funext fun a => Fin.ext (by
      match a with
      | ⟨0, _⟩ => show win0_3.index t (0 : Fin 2) * 256 + 1 * (j 0).val = t.val * 256 + (j 0).val; omega
      | ⟨1, _⟩ => show win0_3.index t (1 : Fin 2) * 64 + 1 * (j 1).val = (j 1).val; omega)
  rw [hemb]
  refine (congrArg (k0_pay1 (F := Ideal) (iblk m c 1 t) (iblk m c 0 t) (iblk m c 2 t)) hj).trans ?_
  refine step_entry (xArg m c) (wArg m c) (bArg m c) (iblk m c 0 t) (iblk m c 1 t) (iblk m c 2 t) _ _ _ ?_ ?_ ?_
  · intro k
    show V m c main_v0 (((cfg0.win 0).blk t).view.emb (ix2 k ⟨(j 1).val, hq⟩)) = _
    refine Eq.trans (congrArg (V m c main_v0) ?_) (xT_apply m c k ⟨(j 1).val, hq⟩)
    exact funext fun a => Fin.ext (by
      match a with
      | ⟨0, _⟩ => show win0_0.index t (0 : Fin 2) * 16384 + 1 * k.val = k.val; omega
      | ⟨1, _⟩ => show win0_0.index t (1 : Fin 2) * 64 + 1 * (j 1).val = (j 1).val; omega)
  · intro k
    show V m c main_arg1 (((cfg0.win 1).blk t).view.emb (ix2 ⟨(j 0).val, hp⟩ k)) = _
    refine Eq.trans (congrFun (V_main_arg1 m c) _) (congrArg (wArg m c) ?_)
    exact funext fun a => Fin.ext (by
      match a with
      | ⟨0, _⟩ => show win0_1.index t (0 : Fin 2) * 256 + 1 * (j 0).val = t.val * 256 + (j 0).val; omega
      | ⟨1, _⟩ => show win0_1.index t (1 : Fin 2) * 16384 + 1 * k.val = k.val; omega)
  · show V m c main_v1 (((cfg0.win 2).blk t).view.emb (ix2 ⟨(j 0).val, hp⟩ 0)) = _
    refine Eq.trans (congrArg (V m c main_v1) ?_) (bcol_apply m c ⟨t.val * 256 + (j 0).val, hrow⟩)
    exact funext fun a => Fin.ext (by
      match a with
      | ⟨0, _⟩ => show win0_2.index t (0 : Fin 2) * 256 + 1 * (j 0).val = t.val * 256 + (j 0).val; omega
      | ⟨1, _⟩ => show win0_2.index t (1 : Fin 2) * 1 + 1 * 0 = 0; omega)

/-- An index of the output array is in step `t`'s block iff each coordinate is in the block's range on its axis. -/
theorem mem_blk (t : Fin cfg0.N) (i : S16384x64.Idx) :
    i ∈ ((cfg0.win 3).blk t).view.set ↔ ∀ a : Fin 2, win0_3.index t a * S256x64.size a ≤ (i a).val ∧ (i a).val < win0_3.index t a * S256x64.size a + S256x64.size a := by
  show i ∈ ((View.whole main_v2).slice (win0_3.rect t)).set ↔ _
  rw [View.set_slice_whole, Rect.mem_set_unit]
  exact Iff.rfl

/-- Every row of the output is in the block of the step that is its quotient by 256. -/
theorem cover (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : (i 0).val / 256 < cfg0.N := lt_of_lt_of_eq (by omega : (i 0).val / 256 < 64) N_0.symm
  refine ⟨⟨(i 0).val / 256, hN⟩, flush0_3 _, ?_⟩
  rw [mem_blk]
  obtain ⟨e00, e01, e10, e11, e20, e21, e30, e31⟩ := idx_facts ⟨(i 0).val / 256, hN⟩
  intro a
  match a with
  | ⟨0, _⟩ =>
    show win0_3.index ⟨(i 0).val / 256, hN⟩ (0 : Fin 2) * 256 ≤ (i 0).val ∧ (i 0).val < win0_3.index ⟨(i 0).val / 256, hN⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, hN⟩ (1 : Fin 2) * 64 ≤ (i 1).val ∧ (i 1).val < win0_3.index ⟨(i 0).val / 256, hN⟩ (1 : Fin 2) * 64 + 64
    rw [e31]; omega

/-- The region leaves the transposed result in its output array. -/
theorem final (c : Dev nD) :
    (dats m 0 c).arrAt 3 cfg0.N = affineT (xArg m c) (wArg m c) (bArg m c) :=
  (dats m 0 c).arrAt_eq_of_cover 3 (affineT (xArg m c) (wArg m c) (bArg m c)) (fun t _ => flushed_eq m c t) cover

end Cert.AffineRows.Region

end
-- ==== Proof.KernelRun.lean ====
/-
  The kernel program's run, read.

  After the region the host transposes the region's 16384 × 64 output into the 64 × 16384 result. The region leaves
  the transposed result `affineT` (one block of 256 rows per step), so the program's result at `(b, n)` is
  `affineT (n, b)`: the layer's function `affine` of the three arguments, which end unchanged.
-/
import proofs.«104818_g71760313581734_cont_9to1_m_768_2_alg».proof.Proof.Region

noncomputable section

namespace Cert.AffineRows.Run

open Idealize.ShloMosaic Idealize.ShloMosaic.TcCoe Idealize.SL.Sem Idealize.ShloMosaic.StableHlo Idealize.ShloMosaic.ValueIdx
open Cert.KernelIdeal Cert.KernelIdeal.Gen Cert.AffineRows.Region

variable (m : (ℓ : Loc nD τ sig) → Buf (Elt Ideal) ℓ) (ρ : Dev nD → PrngReg)

/-- The host's closing transpose of the region's output is the layer's function of the arguments. -/
theorem result_eq (c : Dev nD) :
    (Pipeline.afterTail₀ cfgs (dats m) 0 (V0 m) [hostOps1] c main_v3 : S64x16384.Idx → EReal)
      = affine (xArg m c) (wArg m c) (bArg m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = affineT (xArg m c) (wArg m c) (bArg m c) :=
    (Pipeline.withArrays_arr spec0 launch0.win.arr_inj c _ _ 3).trans (final m c)
  rw [e]
  funext i
  exact transpose_apply [1, 0] (affineT (xArg m c) (wArg m c) (bArg m c)) transposes_S16384x64_S64x16384_1_0 i (ix2 (i 1) (i 0))
    (fun b => match b with | ⟨0, _⟩ => rfl | ⟨1, _⟩ => rfl)

/-- Every weakly fair execution of the kernel program ends with its result at `affine` of the arguments and the
    arguments unchanged. -/
theorem run : θ_run defs (onTc (τ := τ) (main (F := Ideal))) ⟨m, fun _ => 0, ρ⟩ (fun r => ∀ c : Dev nD,
      r.2.mem ((c.tc : Thread nD τ).loc main_v3) = affine (xArg m c) (wArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.AffineRows.Run

end
-- ==== Proof.RefValue.lean ====
/-
  The reference, read index by index.

  The reference transposes `x`, multiplies `W` by it (a plain rows-by-columns product contracting the 16384 input
  features), transposes the product back, and adds `bias` broadcast along the batch axis. Read at entry `(b, n)`
  through the generated one-operation-at-a-time lemmas, that is `Σ_k W (n, k) · x (b, k) + bias n`: the layer's
  function `affine`.
-/
import proofs.«104818_g71760313581734_cont_9to1_m_768_2_alg».proof.Proof.Gen.ReferenceIdeal.Read
import proofs.«104818_g71760313581734_cont_9to1_m_768_2_alg».proof.Proof.Spec

noncomputable section

namespace Cert.AffineRows.Ref

open Idealize.ShloMosaic Idealize.ShloMosaic.ValueIdx Cert.ReferenceIdeal Cert.ReferenceIdeal.Read

/-- The reference's last stage is the layer's function of the three arguments. -/
theorem val_eq_affine [Cert.ReferenceIdeal.Facts] (x : FVec Ideal S64x16384 .f32) (W : FVec Ideal S16384x16384 .f32) (bias : FVec Ideal S16384 .f32) :
    val_main_v5 (F := Ideal) x W bias = affine x W bias := by
  funext i
  obtain ⟨b, n, rfl⟩ : ∃ (b : Fin 64) (n : Fin 16384), i = ix2 b n := ⟨i 0, i 1, eq_ix2 i⟩
  -- the composed index functions of the stages, at entry (b, n)
  have eW : ∀ k : Fin 16384, lidx_main_v1 (idx_main_v2 (ix2 b n)) k = ix2 n k := fun k =>
    funext fun a => Fin.ext (by match a with | ⟨0, _⟩ => rfl | ⟨1, _⟩ => rfl)
  have eX : ∀ k : Fin 16384, idx_main_v0 (ridx_main_v1 (idx_main_v2 (ix2 b n)) k) = ix2 b k := fun k =>
    funext fun a => Fin.ext (by match a with | ⟨0, _⟩ => rfl | ⟨1, _⟩ => rfl)
  have eB : idx_main_v3 (idx_main_v4 (ix2 b n)) = ix1 n :=
    funext fun a => Fin.ext (by match a with | ⟨0, _⟩ => rfl)
  rw [val_main_v5_apply, val_main_v2_apply, val_main_v1_apply, val_main_v4_apply, val_main_v3_apply, affine_apply, eB]
  simp only [val_main_v0_apply, eW, eX]
  rfl

end Cert.AffineRows.Ref

end
-- ==== Proof.lean ====
/-
  The certificate of the layer `y = x · Wᵀ + bias` (batch 64, 16384 input and 16384 output features).

  The kernel program transposes `x`, views `bias` as a column, runs 64 grid steps that each multiply 256 rows of `W`
  by the transposed input and add the bias column, and transposes the 16384 × 64 result back. The reference
  transposes `x`, multiplies `W` by it in one product, transposes back and adds `bias` along the batch axis. Over the
  extended reals both results are, at `(b, n)`, the sum over `k` of `W (n, k) · x (b, k)` plus `bias n`
  (`Cert.AffineRows.affine`): the same factors in the same order, so no law of arithmetic is used and the
  precondition is never opened.

  The three frames are the generated ones (the reference's is its generated run with the result dropped); the
  idealization changed no operation, so `preserves` is trivial; `algebraic` puts the kernel program's run
  (`Cert.AffineRows.Run.run`) beside the reference's generated run, read as `affine` by `Cert.AffineRows.Ref.val_eq_affine`.
-/
import proofs.«104818_g71760313581734_cont_9to1_m_768_2_alg».proof.Defs
import proofs.«104818_g71760313581734_cont_9to1_m_768_2_alg».proof.Proof.Gen.Kernel
import proofs.«104818_g71760313581734_cont_9to1_m_768_2_alg».proof.Proof.Gen.Kernel.Skeleton
import proofs.«104818_g71760313581734_cont_9to1_m_768_2_alg».proof.Proof.Gen.Kernel.Launch
import proofs.«104818_g71760313581734_cont_9to1_m_768_2_alg».proof.Proof.Gen.Kernel.Points
import proofs.«104818_g71760313581734_cont_9to1_m_768_2_alg».proof.Proof.Gen.Kernel.Frame
import proofs.«104818_g71760313581734_cont_9to1_m_768_2_alg».proof.Proof.Gen.KernelIdeal
import proofs.«104818_g71760313581734_cont_9to1_m_768_2_alg».proof.Proof.Gen.KernelIdeal.Skeleton
import proofs.«104818_g71760313581734_cont_9to1_m_768_2_alg».proof.Proof.Gen.KernelIdeal.Launch
import proofs.«104818_g71760313581734_cont_9to1_m_768_2_alg».proof.Proof.Gen.KernelIdeal.Points
import proofs.«104818_g71760313581734_cont_9to1_m_768_2_alg».proof.Proof.Gen.KernelIdeal.Frame
import proofs.«104818_g71760313581734_cont_9to1_m_768_2_alg».proof.Proof.Gen.ReferenceIdeal
import proofs.«104818_g71760313581734_cont_9to1_m_768_2_alg».proof.Proof.Gen.Pre_finite_inputs
import proofs.«104818_g71760313581734_cont_9to1_m_768_2_alg».proof.Proof.Gen.ReferenceIdeal.Run
import proofs.«104818_g71760313581734_cont_9to1_m_768_2_alg».proof.Proof.Gen.ReferenceIdeal.Read
import proofs.«104818_g71760313581734_cont_9to1_m_768_2_alg».proof.Proof.KernelRun
import proofs.«104818_g71760313581734_cont_9to1_m_768_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the three arguments, end with the layer's function of them. -/
theorem algebraic : Cert.algebraic_KernelIdeal_ReferenceIdeal := by
  intro m ρ m' ρ' _ hagree
  refine ⟨fun c => Cert.AffineRows.affine (Cert.AffineRows.Region.xArg m c) (Cert.AffineRows.Region.wArg m c)
    (Cert.AffineRows.Region.bArg m c), Cert.AffineRows.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.AffineRows.Ref.val_eq_affine, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
